-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S1000000x128 : Shape := ⟨2, ![1000000, 128]⟩
abbrev S1000x128 : Shape := ⟨2, ![1000, 128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : IVec S262144 32) (main_arg1 : IVec S262144 32) (main_arg2 : IVec S262144 32) (main_arg3 : FVec F S1000000x128 .f32) (main_arg4 : FVec F S1000x128 .f32) : IVec S_ 1 :=
  let main_v0 : FVec F S1000000x128 .f32 := Host.absf main_arg3
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000x128 .f32 := Host.absf main_arg4
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S262144 : Shape := ⟨1, ![262144]⟩
abbrev S1000000x128 : Shape := ⟨2, ![1000000, 128]⟩
abbrev S1000x128 : Shape := ⟨2, ![1000, 128]⟩
abbrev S_ : Shape := ⟨0, ![]⟩
abbrev S262144x1 : Shape := ⟨2, ![262144, 1]⟩
abbrev S262144x128 : Shape := ⟨2, ![262144, 128]⟩
abbrev S8192x128 : Shape := ⟨2, ![8192, 128]⟩
abbrev S8192 : Shape := ⟨1, ![8192]⟩

abbrev nBuf : Space → Nat
  | .hbm => 33
  | .vmem => 8
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .i32⟩
  | .hbm, ⟨3, _⟩ => ⟨S1000000x128, .f32⟩
  | .hbm, ⟨4, _⟩ => ⟨S1000x128, .f32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S262144x128, .f32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S262144x128, .f32⟩
  | .hbm, ⟨23, _⟩ => ⟨S_, .i32⟩
  | .hbm, ⟨24, _⟩ => ⟨S262144, .i32⟩
  | .hbm, ⟨25, _⟩ => ⟨S262144, .i1⟩
  | .hbm, ⟨26, _⟩ => ⟨S_, .i32⟩
  | .hbm, ⟨27, _⟩ => ⟨S262144, .i32⟩
  | .hbm, ⟨28, _⟩ => ⟨S262144, .i32⟩
  | .hbm, ⟨29, _⟩ => ⟨S262144, .i32⟩
  | .hbm, ⟨30, _⟩ => ⟨S262144x1, .i32⟩
  | .hbm, ⟨31, _⟩ => ⟨S262144x128, .f32⟩
  | .hbm, ⟨32, _⟩ => ⟨S262144, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192, .f32⟩
  | .local _ .vmem, ⟨7, _⟩ => ⟨S8192, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  inb_S8192_S8192_0 : ∀ a, (![0] : Fin 1 → Nat) a + S8192.size a ≤ S8192.size a
  h_S8192 : 0 < S8192.numel
  gather_S1000000x128_S262144x1_S262144x128_1_0_n_n_0_1_1128_wf : GatherDims.WF S1000000x128 S262144x1 S262144x128 [1] [0] [] [0] [] 1 ![1, 128]
  gather_S1000x128_S262144x1_S262144x128_1_0_n_n_0_1_1128_wf : GatherDims.WF S1000x128 S262144x1 S262144x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S262144x128.size a
  hwx0_1 : ∀ i : grid0.Coords, EltTy.bits .f32 = 32 ∨ (Rect.block (s := S262144x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S262144x128.size a
  hwx0_2 : ∀ i : grid0.Coords, EltTy.bits .f32 = 32 ∨ (Rect.block (s := S262144x128) S8192x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S262144.size a
  hwx0_3 : ∀ i : grid0.Coords, EltTy.bits .f32 = 32 ∨ (Rect.block (s := S262144) S8192.size (cc0_transform_3 i) (hinb0_3 i)).WholeWords (EltTy.packing .f32)

variable [Facts₀]

def gather_S1000000x128_S262144x1_S262144x128_1_0_n_n_0_1_1128 : GatherDims S1000000x128 S262144x1 S262144x128 where
  offsetDims := [1]
  collapsedSliceDims := [0]
  operandBatchingDims := []
  startIndicesBatchingDims := []
  startIndexMap := [0]
  indexVectorDim := 1
  sliceSizes := ![1, 128]
  wf := gather_S1000000x128_S262144x1_S262144x128_1_0_n_n_0_1_1128_wf
def gather_S1000x128_S262144x1_S262144x128_1_0_n_n_0_1_1128 : GatherDims S1000x128 S262144x1 S262144x128 where
  offsetDims := [1]
  collapsedSliceDims := [0]
  operandBatchingDims := []
  startIndicesBatchingDims := []
  startIndexMap := [0]
  indexVectorDim := 1
  sliceSizes := ![1, 128]
  wf := gather_S1000x128_S262144x1_S262144x128_1_0_n_n_0_1_1128_wf

abbrev win0_0 : Pipeline.Window sig grid0 :=
  Pipeline.Window.ofSpec (Memref.whole main_v6) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S8192x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144 : Shape := ⟨1, ![262144]⟩
abbrev S1000000x128 : Shape := ⟨2, ![1000000, 128]⟩
abbrev S1000x128 : Shape := ⟨2, ![1000, 128]⟩
abbrev S_ : Shape := ⟨0, ![]⟩
abbrev S262144x1 : Shape := ⟨2, ![262144, 1]⟩
abbrev S262144x128 : Shape := ⟨2, ![262144, 128]⟩

abbrev nBuf : Space → Nat
  | .hbm => 44
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S262144, .i32⟩
  | .hbm, ⟨3, _⟩ => ⟨S1000000x128, .f32⟩
  | .hbm, ⟨4, _⟩ => ⟨S1000x128, .f32⟩
  | .hbm, ⟨5, _⟩ => ⟨S_, .i32⟩
  | .hbm, ⟨6, _⟩ => ⟨S262144, .i32⟩
  | .hbm, ⟨7, _⟩ => ⟨S262144, .i1⟩
  | .hbm, ⟨8, _⟩ => ⟨S_, .i32⟩
  | .hbm, ⟨9, _⟩ => ⟨S262144, .i32⟩
  | .hbm, ⟨10, _⟩ => ⟨S262144, .i32⟩
  | .hbm, ⟨11, _⟩ => ⟨S262144, .i32⟩
  | .hbm, ⟨12, _⟩ => ⟨S262144x1, .i32⟩
  | .hbm, ⟨13, _⟩ => ⟨S262144x128, .f32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S262144x128, .f32⟩
  | .hbm, ⟨23, _⟩ => ⟨S_, .i32⟩
  | .hbm, ⟨24, _⟩ => ⟨S262144, .i32⟩
  | .hbm, ⟨25, _⟩ => ⟨S262144, .i1⟩
  | .hbm, ⟨26, _⟩ => ⟨S_, .i32⟩
  | .hbm, ⟨27, _⟩ => ⟨S262144, .i32⟩
  | .hbm, ⟨28, _⟩ => ⟨S262144, .i32⟩
  | .hbm, ⟨29, _⟩ => ⟨S262144, .i32⟩
  | .hbm, ⟨30, _⟩ => ⟨S262144x1, .i32⟩
  | .hbm, ⟨31, _⟩ => ⟨S262144x128, .f32⟩
  | .hbm, ⟨32, _⟩ => ⟨S262144x128, .f32⟩
  | .hbm, ⟨33, _⟩ => ⟨S262144x128, .f32⟩
  | .hbm, ⟨34, _⟩ => ⟨S_, .f32⟩
  | .hbm, ⟨35, _⟩ => ⟨S262144, .f32⟩
  | .hbm, ⟨36, _⟩ => ⟨S262144, .f32⟩
  | .hbm, ⟨37, _⟩ => ⟨S262144, .f32⟩
  | .hbm, ⟨38, _⟩ => ⟨S_, .f32⟩
  | .hbm, ⟨39, _⟩ => ⟨S262144, .f32⟩
  | .hbm, ⟨40, _⟩ => ⟨S262144, .f32⟩
  | .hbm, ⟨41, _⟩ => ⟨S_, .f32⟩
  | .hbm, ⟨42, _⟩ => ⟨S262144, .f32⟩
  | .hbm, ⟨43, _⟩ => ⟨S262144, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  reducesTo_S262144x128_S262144_d1 : S262144x128.ReducesTo [1] S262144
  h_S_ : 0 < S_.numel
  gather_S1000000x128_S262144x1_S262144x128_1_0_n_n_0_1_1128_wf : GatherDims.WF S1000000x128 S262144x1 S262144x128 [1] [0] [] [0] [] 1 ![1, 128]
  gather_S1000x128_S262144x1_S262144x128_1_0_n_n_0_1_1128_wf : GatherDims.WF S1000x128 S262144x1 S262144x128 [1] [0] [] [0] [] 1 ![1, 128]

variable [Facts₀]

def gather_S1000000x128_S262144x1_S262144x128_1_0_n_n_0_1_1128 : GatherDims S1000000x128 S262144x1 S262144x128 where
  offsetDims := [1]
  collapsedSliceDims := [0]
  operandBatchingDims := []
  startIndicesBatchingDims := []
  startIndexMap := [0]
  indexVectorDim := 1
  sliceSizes := ![1, 128]
  wf := gather_S1000000x128_S262144x1_S262144x128_1_0_n_n_0_1_1128_wf
def gather_S1000x128_S262144x1_S262144x128_1_0_n_n_0_1_1128 : GatherDims S1000x128 S262144x1 S262144x128 where
  offsetDims := [1]
  collapsedSliceDims := [0]
  operandBatchingDims := []
  startIndicesBatchingDims := []
  startIndexMap := [0]
  indexVectorDim := 1
  sliceSizes := ![1, 128]
  wf := gather_S1000x128_S262144x1_S262144x128_1_0_n_n_0_1_1128_wf

class Facts : Prop extends Facts₀ where

variable [Facts]
-- ==== Proof.Score.lean ====
/-
  The DistMult score of a batch of triples, as one function of the three gathered row arrays.

  For triple `b` let `h b`, `r b`, `t b` be the 128 coordinates of its head, relation and tail rows. Its score is
  the logistic function of the trilinear form,

      score b = σ (∑ d, (h b d · r b d) · t b d),      σ x = 1 / (1 + e^(−x)),

  read on the extended reals: products and the sum are the extended reals' own, and σ is extended by
  σ(−∞) = 0, σ(+∞) = 1. Nothing here needs the entries to be finite: the two programs form the same
  products in the same order, so no law beyond `0 + s = s` is used.
-/
import Idealize.ShloMosaic.PureOps.Ideal
import Idealize.ShloMosaic.PureOps.Ideal.Laws
import Idealize.ShloMosaic.Lib.ValueIdx

noncomputable section

open scoped BigOperators

namespace Cert.DistMult

open Idealize.ShloMosaic Idealize.ShloMosaic.ValueIdx

/-- The gathered rows: one 128-vector per triple of the batch. -/
abbrev Rows : Shape := ⟨2, ![262144, 128]⟩
/-- One score per triple of the batch. -/
abbrev Batch : Shape := ⟨1, ![262144]⟩

/-- The score of triple `b`: the logistic function of `∑ d, (h b d · r b d) · t b d`. -/
def scoreAt (h r t : Rows.Idx → EReal) (b : Fin 262144) : EReal :=
  Ideal.logistic (∑ d : Fin 128, h (ix2 b d) * r (ix2 b d) * t (ix2 b d))

/-- The scores of the whole batch. -/
def score (h r t : Rows.Idx → EReal) : Batch.Idx → EReal := fun i => scoreAt h r t (i 0)

/-- The single-precision word `0x3F800000` denotes the real number one. -/
theorem one_word : Ideal.ofBits .f32 0x3F800000#32 = 1 := by
  simp [Ideal.ofBits, Ideal.ieee, -EReal.coe_mul]; norm_num

/-- The logistic function spelled with a quotient, a sum with one, an exponential and a negation — each read on the
    extended reals — of a sum started from the zero word, is the logistic function of the bare sum. -/
theorem logistic_spelled (s : EReal) :
    Ideal.div (Ideal.ofBits .f32 0x3F800000#32)
      (Ideal.ofBits .f32 0x3F800000#32 + Ideal.exp (-(Ideal.ofBits .f32 0x00000000#32 + s))) = Ideal.logistic s := by
  rw [one_word, Ideal.ofBits_zero_f32, zero_add]; rfl

end Cert.DistMult

end
-- ==== Proof.RefScore.lean ====
/-
  The reference computes the score.

  Its last stage divides one by one plus the exponential of the negated row sum; the row sum is the host's sum, from
  zero, over the 128 coordinates of `(heads · rels) · tails`, the three arrays being the rows it gathered. Index by
  index that is `score` of the three gathered arrays: the sum's index at `(b, d)` is the pair of coordinates, and the
  spelled logistic function is the logistic function.
-/
import proofs.«135087_j23536420782557_1_alg».proof.Proof.Gen.ReferenceIdeal.Read
import proofs.«135087_j23536420782557_1_alg».proof.Proof.Score

noncomputable section

open scoped BigOperators

namespace Cert.DistMult.Ref

open Cert.ReferenceIdeal Cert.ReferenceIdeal.Gen Cert.ReferenceIdeal.Read
open Idealize.ShloMosaic Idealize.ShloMosaic.ValueIdx

/-- The element of a row that the row sum's `d`-th term reads is the one at coordinates `(b, d)`. -/
theorem sum_index (i : S262144.Idx) (d : Fin 128) : idx_main_v23 i d = ix2 (i 0) d :=
  funext fun a => Fin.ext (by match a with | ⟨0, _⟩ => rfl | ⟨1, _⟩ => rfl)

/-- The reference's result, as a function of its five arguments, is the score of the rows it gathers: heads from the
    entity table at the head indices, relations from the relation table, tails from the entity table at the tail
    indices. -/
theorem result_eq (x0 x1 x2 : (⟨S262144, .i32⟩ : BufTy).Contents (Elt Ideal))
    (x3 : (⟨S1000000x128, .f32⟩ : BufTy).Contents (Elt Ideal)) (x4 : (⟨S1000x128, .f32⟩ : BufTy).Contents (Elt Ideal)) :
    val_main_v29 (F := Ideal) x0 x1 x2 x3 x4
      = score (val_main_v6 (F := Ideal) x0 x3) (val_main_v20 (F := Ideal) x2 x4) (val_main_v13 (F := Ideal) x1 x3) := by
  funext i
  rw [val_main_v29_apply, val_main_v28_apply, val_main_cst_6_apply, val_main_v27_apply, val_main_v26_apply,
    val_main_cst_5_apply, val_main_v25_apply, val_main_v24_apply, val_main_v23_apply, val_main_cst_apply]
  simp only [val_main_v22_apply, val_main_v21_apply, sum_index, Ideal.hostDivf_def, Ideal.addf_def,
    Ideal.hostUnary_exp_def, Ideal.hostNegf_def, Ideal.negf_def, Ideal.mulf_def, Ideal.ofBits_def]
  exact logistic_spelled _

end Cert.DistMult.Ref

end
-- ==== Proof.KernelScore.lean ====
/-
  The kernel computes the score, block by block.

  The grid has 32 points. At point `p` the body loads rows `8192·p … 8192·p + 8191` of the three gathered arrays
  (heads, tails, relations: its three input windows), multiplies heads by relations and then by tails coordinate by
  coordinate, sums each row's 128 products from zero, applies the logistic function, and stores the 8192 results as
  block `p` of the output. So what point `p` writes back is block `p` of `score heads rels tails`; the 32 blocks tile
  the 262144 entries of the output; hence after the run the output array is `score heads rels tails`.
-/
import proofs.«135087_j23536420782557_1_alg».proof.Proof.Gen.KernelIdeal.Value
import proofs.«135087_j23536420782557_1_alg».proof.Proof.Score
import Idealize.ShloMosaic.PureOps.Ideal.Laws
import Idealize.ShloMosaic.Lib.Pipeline.Value
import Idealize.ShloMosaic.Lib.ValueIdx

set_option maxRecDepth 16384

noncomputable section

open scoped BigOperators

namespace Cert.DistMult.Kern

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One block -/

theorem origin2 : (![0, 0] : Fin 2 → Nat) = fun _ => 0 := funext fun a => by fin_cases a <;> rfl

/-- The lane sum of a block of 8192 rows, at row `q`, is the sum of that row's 128 entries. -/
theorem row_sum (x : FVec Ideal S8192x128 .f32) (hacc : (0x00000000#32 : BitVec 32) = 0x00000000#32) (y : S8192.Idx) :
    multiReduction .add [1] S8192 x 0x00000000#32 reduces_S8192x128_S8192 (.inl rfl) hacc y
      = ∑ d : Fin 128, x (ix2 (y 0) d) := by
  refine (Ideal.multiReduction_add_single x 0x00000000#32 reduces_S8192x128_S8192 (.inl rfl) hacc y).trans ?_
  refine Finset.sum_congr rfl fun d _ => ?_
  exact congrArg x (funext fun a => Fin.ext (by match a with | ⟨0, _⟩ => rfl | ⟨1, _⟩ => rfl))

/-- What the body leaves in the output block, from loads `a` (heads), `b` (relations), `e` (tails): at row `q` the
    logistic function of `∑ d, (a q d · b q d) · e q d`. -/
theorem block_score (a b e : FVec Ideal S8192x128 .f32) (y : S8192.Idx) :
    E3 (F := Ideal) a b e y = Ideal.logistic (∑ d : Fin 128, a (ix2 (y 0) d) * b (ix2 (y 0) d) * e (ix2 (y 0) d)) := by
  have hy : ix3_0 y = y := funext fun k => Fin.ext (by match k with | ⟨0, _⟩ => rfl)
  show Ideal.logistic (multiReduction .add [1] S8192 (mulf (mulf (shapeCast S8192x128 a shapeCasts_S8192x128_S8192x128)
    (shapeCast S8192x128 b shapeCasts_S8192x128_S8192x128)) (shapeCast S8192x128 e shapeCasts_S8192x128_S8192x128))
    0x00000000#32 reduces_S8192x128_S8192 (.inl rfl) rfl (ix3_0 y)) = _
  rw [hy, shapeCast_self, shapeCast_self, shapeCast_self]
  exact congrArg Ideal.logistic (row_sum _ rfl y)

/-- The output block after the body, from the three input blocks in window order (heads, tails, relations). -/
theorem block_eq (x0 x1 x2 : FVec Ideal S8192x128 .f32) (y : S8192.Idx) :
    out0_3 (F := Ideal) x0 x1 x2 y
      = Ideal.logistic (∑ d : Fin 128, x0 (ix2 (y 0) d) * x2 (ix2 (y 0) d) * x1 (ix2 (y 0) d)) := by
  unfold out0_3
  simp only [View.ld_unit_zero (S := S8192x128) origin2]
  exact (canon3_eq (F := Ideal) x0 x2 x1 y).trans (block_score x0 x2 x1 y)

/-! ## The gathered arrays as the region finds them -/

/-- The head rows: the first window's array. -/
abbrev heads (c : Dev nD) : Rows.Idx → EReal := V m c main_v6
/-- The tail rows: the second window's array. -/
abbrev tails (c : Dev nD) : Rows.Idx → EReal := V m c main_v13
/-- The relation rows: the third window's array. -/
abbrev rels (c : Dev nD) : Rows.Idx → EReal := V m c main_v20

/-! ## From blocks to the array -/

/-- The index maps over the grid: each input window's block row is the output's block, its block column is 0. -/
theorem idx_facts : ∀ t : Fin cfg0.N,
    win0_0.index t (0 : Fin 2) = win0_3.index t (0 : Fin 1) ∧ win0_0.index t (1 : Fin 2) = 0
    ∧ win0_1.index t (0 : Fin 2) = win0_3.index t (0 : Fin 1) ∧ win0_1.index t (1 : Fin 2) = 0
    ∧ win0_2.index t (0 : Fin 2) = win0_3.index t (0 : Fin 1) ∧ win0_2.index t (1 : Fin 2) = 0
    ∧ win0_3.index t (0 : Fin 1) ≤ 31 :=
  (by decide +kernel : ∀ t : Fin grid0.N, _)

/-- Every one of the 32 output blocks is some point's. -/
theorem idx_onto : ∀ q : Fin 32, ∃ t : Fin cfg0.N, win0_3.index t = ![q.val] :=
  (by decide +kernel : ∀ q : Fin 32, ∃ t : Fin grid0.N, win0_3.index t = ![q.val])

/-- Row `q` of an input window's block at point `t` is row `8192·p + q` of its array, `p` the output's block. -/
theorem emb_row (t : Fin cfg0.N) (j : S8192.Idx) (d : Fin 128) :
    ((cfg0.win 0).blk t).view.emb (ix2 (j 0) d) = ix2 ((((cfg0.win 3).blk t).view.emb j) 0) d
    ∧ ((cfg0.win 1).blk t).view.emb (ix2 (j 0) d) = ix2 ((((cfg0.win 3).blk t).view.emb j) 0) d
    ∧ ((cfg0.win 2).blk t).view.emb (ix2 (j 0) d) = ix2 ((((cfg0.win 3).blk t).view.emb j) 0) d := by
  obtain ⟨e0, e1, e2, e3, e4, e5, e6⟩ := idx_facts t
  have hj : (j 0).val < 8192 := (j 0).isLt
  have hd : d.val < 128 := d.isLt
  refine ⟨?_, ?_, ?_⟩
  · funext a; apply Fin.ext
    match a with
    | ⟨0, _⟩ => show win0_0.index t (0 : Fin 2) * 8192 + 1 * (j 0).val = win0_3.index t (0 : Fin 1) * 8192 + 1 * (j 0).val; omega
    | ⟨1, _⟩ => show win0_0.index t (1 : Fin 2) * 128 + 1 * d.val = d.val; omega
  · funext a; apply Fin.ext
    match a with
    | ⟨0, _⟩ => show win0_1.index t (0 : Fin 2) * 8192 + 1 * (j 0).val = win0_3.index t (0 : Fin 1) * 8192 + 1 * (j 0).val; omega
    | ⟨1, _⟩ => show win0_1.index t (1 : Fin 2) * 128 + 1 * d.val = d.val; omega
  · funext a; apply Fin.ext
    match a with
    | ⟨0, _⟩ => show win0_2.index t (0 : Fin 2) * 8192 + 1 * (j 0).val = win0_3.index t (0 : Fin 1) * 8192 + 1 * (j 0).val; omega
    | ⟨1, _⟩ => show win0_2.index t (1 : Fin 2) * 128 + 1 * d.val = d.val; omega

/-- What point `t` writes back is block `t` of the score of the gathered arrays. -/
theorem flushed_eq (c : Dev nD) (t : Fin cfg0.N) :
    (dats m 0 c).flushed 3 t
      = ((cfg0.win 3).blk t).view.read (Elt Ideal) (score (heads m c) (rels m c) (tails m c)) := by
  rw [flushed3]
  funext j
  show out0_3 (F := Ideal) (iblk m c 0 t) (iblk m c 1 t) (iblk m c 2 t) j
    = score (heads m c) (rels m c) (tails m c) (((cfg0.win 3).blk t).view.emb j)
  refine (block_eq (iblk m c 0 t) (iblk m c 1 t) (iblk m c 2 t) j).trans ?_
  unfold score scoreAt
  refine congrArg Ideal.logistic (Finset.sum_congr rfl fun d _ => ?_)
  obtain ⟨h0, h1, h2⟩ := emb_row t j d
  show heads m c (((cfg0.win 0).blk t).view.emb (ix2 (j 0) d))
      * rels m c (((cfg0.win 2).blk t).view.emb (ix2 (j 0) d))
      * tails m c (((cfg0.win 1).blk t).view.emb (ix2 (j 0) d)) = _
  rw [h0, h1, h2]
  rfl

/-- An entry of the output lies in point `t`'s block iff its coordinate is in that block's range. -/
theorem mem_blk (t : Fin cfg0.N) (i : S262144.Idx) :
    i ∈ ((cfg0.win 3).blk t).view.set ↔ ∀ a : Fin 1, win0_3.index t a * S8192.size a ≤ (i a).val
      ∧ (i a).val < win0_3.index t a * S8192.size a + S8192.size a := by
  show i ∈ ((View.whole main_v21).slice (win0_3.rect t)).set ↔ _
  rw [View.set_slice_whole, Rect.mem_set_unit]
  exact Iff.rfl

/-- The 32 blocks of 8192 tile the 262144 entries: entry `n` is in block `n / 8192`. -/
theorem cover (i : S262144.Idx) :
    ∃ t : Fin cfg0.N, (cfg0.win 3).flush t = true ∧ i ∈ ((cfg0.win 3).blk t).view.set := by
  have hi0 : (i 0).val < 262144 := (i 0).isLt
  obtain ⟨t, ht⟩ := idx_onto ⟨(i 0).val / 8192, by omega⟩
  have q0 : win0_3.index t (0 : Fin 1) = (i 0).val / 8192 := congrFun ht 0
  refine ⟨t, flush0_3 t, ?_⟩
  rw [mem_blk]
  intro a
  match a with
  | ⟨0, _⟩ =>
    show win0_3.index t (0 : Fin 1) * 8192 ≤ (i 0).val ∧ (i 0).val < win0_3.index t (0 : Fin 1) * 8192 + 8192
    omega

/-- After the run the output array is the score of the gathered arrays. -/
theorem final (c : Dev nD) :
    (dats m 0 c).arrAt 3 cfg0.N = score (heads m c) (rels m c) (tails m c) :=
  (dats m 0 c).arrAt_eq_of_cover 3 _ (fun t _ => flushed_eq m c t) cover

/-- The kernel's run: it terminates with the result at the score of the gathered arrays and the arguments unchanged. -/
theorem run : θ_run defs (onTc (τ := τ) (main (F := Ideal))) ⟨m, fun _ => 0, ρ⟩ fun r => ∀ c : Dev nD,
      r.2.mem ((c : Thread nD τ).loc main_v21) = score (heads m c) (rels m c) (tails m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.DistMult.Kern

end
-- ==== Proof.Gathered.lean ====
/-
  The three arrays the kernel's region reads are the rows the reference gathers.

  Before its region the kernel's program wraps each index array (a negative index gets the table's length added),
  and gathers the head rows and the tail rows from the entity table and the relation rows from the relation table:
  host operations, the same ones the reference starts with. So what the region finds in its three input arrays is, as
  a function of the program's arguments, the reference's three gather stages at those arguments.
-/
import proofs.«135087_j23536420782557_1_alg».proof.Proof.Gen.KernelIdeal.Frame
import proofs.«135087_j23536420782557_1_alg».proof.Proof.Gen.ReferenceIdeal.Read
import Idealize.ShloMosaic.Lib.StableHlo.Run

set_option maxRecDepth 16384

noncomputable section

namespace Cert.DistMult.Gathered

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The first window's array holds the entity table's rows at the wrapped head indices. -/
theorem heads_eq (c : Dev nD) :
    (V m c main_v6 : S262144x128.Idx → EReal)
      = Cert.ReferenceIdeal.Read.val_main_v6 (F := Ideal) (m ((c : Thread nD τ).loc main_arg0))
          (m ((c : Thread nD τ).loc main_arg3)) := by
  dsimp only [Gen.V, Gen.hostOps0]; after_results; rfl

/-- The second window's array holds the entity table's rows at the wrapped tail indices. -/
theorem tails_eq (c : Dev nD) :
    (V m c main_v13 : S262144x128.Idx → EReal)
      = Cert.ReferenceIdeal.Read.val_main_v13 (F := Ideal) (m ((c : Thread nD τ).loc main_arg1))
          (m ((c : Thread nD τ).loc main_arg3)) := by
  dsimp only [Gen.V, Gen.hostOps0]; after_results; rfl

set_option maxHeartbeats 2000000 in
/-- The third window's array holds the relation table's rows at the wrapped relation indices. -/
theorem rels_eq (c : Dev nD) :
    (V m c main_v20 : S262144x128.Idx → EReal)
      = Cert.ReferenceIdeal.Read.val_main_v20 (F := Ideal) (m ((c : Thread nD τ).loc main_arg2))
          (m ((c : Thread nD τ).loc main_arg4)) := by
  dsimp only [Gen.V, Gen.hostOps0]; after_results_simp <;> rfl

end Cert.DistMult.Gathered

end
-- ==== Proof.lean ====
/-
  DistMult scoring: a fused multiply–multiply–sum–logistic kernel against its jnp reference, over the extended reals.

  Both programs start with the same host operations: each of the three index arrays is wrapped (a negative index gets
  the table's length added), and the head and tail rows are gathered from the entity table, the relation rows from the
  relation table. The reference then multiplies heads by relations by tails, sums each row's 128 products from zero,
  and applies 1 / (1 + e^(−x)). The kernel does the same on 32 blocks of 8192 rows, with the logistic function as one
  operation. On the extended reals that operation is by definition 1 / (1 + e^(−x)), the products are formed in the
  same order on both sides, and both sums start from zero: the two results are one function of the gathered rows,

      score b = σ (∑ d, (heads b d · rels b d) · tails b d),

  with no use of the inputs' finiteness.

  The three frames: the kernel's two are the generated frame runs; the reference's is its generated run with the result
  dropped. The idealization rewrote no operation, so there is nothing to preserve. The equivalence: the kernel's run
  ends at `score` of the arrays its region finds (Proof/KernelScore.lean), those arrays are the reference's gather
  stages at the same arguments (Proof/Gathered.lean), and the reference's last stage is `score` of its gather stages
  (Proof/RefScore.lean).
-/
import proofs.«135087_j23536420782557_1_alg».proof.Defs
import proofs.«135087_j23536420782557_1_alg».proof.Proof.Gen.Kernel
import proofs.«135087_j23536420782557_1_alg».proof.Proof.Gen.Kernel.Skeleton
import proofs.«135087_j23536420782557_1_alg».proof.Proof.Gen.Kernel.Launch
import proofs.«135087_j23536420782557_1_alg».proof.Proof.Gen.Kernel.Points
import proofs.«135087_j23536420782557_1_alg».proof.Proof.Gen.Kernel.Frame
import proofs.«135087_j23536420782557_1_alg».proof.Proof.Gen.KernelIdeal
import proofs.«135087_j23536420782557_1_alg».proof.Proof.Gen.KernelIdeal.Skeleton
import proofs.«135087_j23536420782557_1_alg».proof.Proof.Gen.KernelIdeal.Launch
import proofs.«135087_j23536420782557_1_alg».proof.Proof.Gen.KernelIdeal.Points
import proofs.«135087_j23536420782557_1_alg».proof.Proof.Gen.KernelIdeal.Frame
import proofs.«135087_j23536420782557_1_alg».proof.Proof.Gen.ReferenceIdeal
import proofs.«135087_j23536420782557_1_alg».proof.Proof.Gen.Pre_finite_inputs
import proofs.«135087_j23536420782557_1_alg».proof.Proof.Gen.KernelIdeal.Value
import proofs.«135087_j23536420782557_1_alg».proof.Proof.Gen.ReferenceIdeal.Run
import proofs.«135087_j23536420782557_1_alg».proof.Proof.Gen.ReferenceIdeal.Read
import proofs.«135087_j23536420782557_1_alg».proof.Proof.Score
import proofs.«135087_j23536420782557_1_alg».proof.Proof.RefScore
import proofs.«135087_j23536420782557_1_alg».proof.Proof.KernelScore
import proofs.«135087_j23536420782557_1_alg».proof.Proof.Gathered
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the five arguments, both programs end with the score of the gathered rows. -/
theorem algebraic : Cert.algebraic_KernelIdeal_ReferenceIdeal := by
  intro m ρ m' ρ' _ hagree
  refine ⟨fun c => Cert.DistMult.score (Cert.DistMult.Kern.heads m c) (Cert.DistMult.Kern.rels m c)
    (Cert.DistMult.Kern.tails m c), Cert.DistMult.Kern.run m ρ, ?_⟩
  refine (θ_run Cert.ReferenceIdeal.defs _ _).mono (fun _ h c => ⟨(h c).1.trans ?_, (h c).2⟩)
    (Cert.ReferenceIdeal.Value.run (F := Ideal) m' ρ')
  show _ = Cert.DistMult.score (Cert.DistMult.Kern.heads m c) (Cert.DistMult.Kern.rels m c)
    (Cert.DistMult.Kern.tails m c)
  rw [Cert.ReferenceIdeal.Read.val_main_v29_eq, Cert.DistMult.Ref.result_eq,
    (hagree c).1, (hagree c).2.1, (hagree c).2.2.1, (hagree c).2.2.2.1, (hagree c).2.2.2.2]
  exact congr (congr (congrArg Cert.DistMult.score (Cert.DistMult.Gathered.heads_eq m c).symm)
    (Cert.DistMult.Gathered.rels_eq m c).symm) (Cert.DistMult.Gathered.tails_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
